-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S8192 32) (main_arg2 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S1x1 : Shape := ⟨2, ![1, 1]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S1 : Shape := ⟨1, ![1]⟩

abbrev nBuf : Space → Nat
  | .hbm => 51
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x1, .i32⟩
  | .hbm, ⟨20, _⟩ => ⟨S1x128, .i32⟩
  | .hbm, ⟨21, _⟩ => ⟨S8192x128, .i32⟩
  | .hbm, ⟨22, _⟩ => ⟨S8192x128, .i32⟩
  | .hbm, ⟨23, _⟩ => ⟨S8192x128, .i1⟩
  | .hbm, ⟨24, _⟩ => ⟨S8192x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S1x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x128, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S1x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1x1, .f32⟩
  | .local _ .vmem, ⟨13, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v2 : Ref sig .tc := ⟨.hbm, 24, rfl⟩
abbrev main_cst : Ref sig .tc := ⟨.hbm, 25, rfl⟩
abbrev main_cst_0 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v38 : BitVec 1 := Scalar.cmpi .eq arg0 c7_i32
  let arg1 : BitVec 32 := BitVec.ofNat 32 (i 1).val
  let c7_i32_20 : BitVec 32 := 7#32
  let v39 : BitVec 1 := Scalar.cmpi .eq arg1 c7_i32_20
  let v40 : BitVec 1 := Scalar.andi v38 v39
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  reducesTo_S8192x128_S8192_d1 : S8192x128.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S128_S1x128_1 : S128.BroadcastsInDim S1x128 (![1] : Fin 1 → Fin S1x128.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128 : Shape := ⟨1, ![128]⟩
abbrev S8192x1 : Shape := ⟨2, ![8192, 1]⟩
abbrev S1x128 : Shape := ⟨2, ![1, 128]⟩
abbrev S_ : Shape := ⟨0, ![]⟩
abbrev S128x8192 : Shape := ⟨2, ![128, 8192]⟩
abbrev S8192x8192 : Shape := ⟨2, ![8192, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128, .f32⟩
  | .hbm, ⟨3, _⟩ => ⟨S8192x1, .i32⟩
  | .hbm, ⟨4, _⟩ => ⟨S1x128, .i32⟩
  | .hbm, ⟨5, _⟩ => ⟨S8192x128, .i32⟩
  | .hbm, ⟨6, _⟩ => ⟨S8192x128, .i32⟩
  | .hbm, ⟨7, _⟩ => ⟨S8192x128, .i1⟩
  | .hbm, ⟨8, _⟩ => ⟨S8192x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S128x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x128, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S128x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call2_cst : Ref sig .tc := ⟨.hbm, 20, rfl⟩
abbrev main_call2_v0 : Ref sig .tc := ⟨.hbm, 21, rfl⟩
abbrev main_call2_cst_0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_cst_1 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_cst_4 : Ref sig .tc := ⟨.hbm, 57, rfl⟩
abbrev main_v25 : Ref sig .tc := ⟨.hbm, 58, rfl⟩
abbrev main_cst_5 : Ref sig .tc := ⟨.hbm, 59, rfl⟩
abbrev main_v26 : Ref sig .tc := ⟨.hbm, 60, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S128_S1x128_1 : S128.BroadcastsInDim S1x128 (![1] : Fin 1 → Fin S1x128.rank)
  reducesTo_S8192x128_S8192_d1 : S8192x128.ReducesTo [1] S8192
  h_S_ : 0 < S_.numel
  bcast_S_S8192 : S_.BroadcastsInDim S8192 (![] : Fin 0 → Fin S8192.rank)
  transposes_S8192x128_S128x8192_1_0 : S8192x128.Transposes [1, 0] S128x8192
  bcast_S8192x1_S8192x8192_0_1 : S8192x1.BroadcastsInDim S8192x8192 (![0, 1] : Fin 2 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Pieces.lean ====
/-
  What each control case of the kernel body leaves in its one-word accumulator (a 1 × 1 scratch carried from grid point to
  grid point) and, at the last point, in the 1 × 1 output block — read off the stores the body's run found.

  At the first point the body stores a zero word, reads it back and stores back "that word plus this tile's sum";
  at every later point it reads the word the point before left and stores back "that word plus this tile's sum"; at the
  last point it also copies the freshly stored word into the output block. In each case the stored value is the body's own
  arithmetic (its payloads) applied to the blocks loaded whole from the staging buffers.
-/
import proofs.«100721_j53927609369071_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A later point that is not the last: the accumulator ends at the loaded word plus the tile's sum. -/
theorem scratch_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S1024x128 .f32) (x1 : Vec F S1024x128 .f32) (x2 : Vec F S1024x128 .f32) (x3 : Vec F S1024x128 .f32) (x4 : Vec F S1024x1 .f32) (x5 : Vec F S1024x1 .f32) (xs0 : Vec F S1x1 .f32) :
    sout0_B_0 c i arg2 harg2 arg3 harg3 arg4 harg4 arg5 harg5 arg6 harg6 arg7 harg7 arg8 harg8 arg9 harg9 hc0 hc1 x0 x1 x2 x3 x4 x5 xs0 = k0_pay1 (k0_pay3 x0 x1 x2 x3 x4 x5 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1) hz, View.readCov_unit_zero (S := S1x1) _ hz]

/-- The last point: the accumulator ends the same way … -/
theorem scratch_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1024x128 .f32) (x1 : Vec F S1024x128 .f32) (x2 : Vec F S1024x128 .f32) (x3 : Vec F S1024x128 .f32) (x4 : Vec F S1024x1 .f32) (x5 : Vec F S1024x1 .f32) (xs0 : Vec F S1x1 .f32) :
    sout0_C_0 c i arg2 harg2 arg3 harg3 arg4 harg4 arg5 harg5 arg6 harg6 arg7 harg7 arg8 harg8 arg9 harg9 hc0 hc1 x0 x1 x2 x3 x4 x5 xs0 = k0_pay1 (k0_pay3 x0 x1 x2 x3 x4 x5 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1) hz, View.readCov_unit_zero (S := S1x1) _ hz]

/-- … and the output block receives that same word. -/
theorem out_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1024x128 .f32) (x1 : Vec F S1024x128 .f32) (x2 : Vec F S1024x128 .f32) (x3 : Vec F S1024x128 .f32) (x4 : Vec F S1024x1 .f32) (x5 : Vec F S1024x1 .f32) (xs0 : Vec F S1x1 .f32) :
    out0_C_6 c i arg2 harg2 arg3 harg3 arg4 harg4 arg5 harg5 arg6 harg6 arg7 harg7 arg8 harg8 arg9 harg9 hc0 hc1 x0 x1 x2 x3 x4 x5 xs0 = k0_pay1 (k0_pay3 x0 x1 x2 x3 x4 x5 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1) hz, View.readCov_unit_zero (S := S1x1) _ hz]

/-- The first point: the zero word is stored, read back, and the tile's sum added to it. -/
theorem scratch_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1024x128 .f32) (x1 : Vec F S1024x128 .f32) (x2 : Vec F S1024x128 .f32) (x3 : Vec F S1024x128 .f32) (x4 : Vec F S1024x1 .f32) (x5 : Vec F S1024x1 .f32) :
    sout0_A_0 c i arg2 harg2 arg3 harg3 arg4 harg4 arg5 harg5 arg6 harg6 arg7 harg7 arg8 harg8 arg9 harg9 hc0 hc1 x0 x1 x2 x3 x4 x5 = k0_pay1 (k0_pay3 x0 x1 x2 x3 x4 x5 (k0_pay2 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1) hz, View.readCov_unit_zero (S := S1x1) _ hz]

end Cert.KernelIdeal.Pieces

end
-- ==== Proof.PairSum.lean ====
/-
  The sum of absolute pairwise differences as a function of six arrays, and the law that lets it be summed tile by tile.

  For arrays p, l, q, m of n rows and 128 columns and two columns a, b of n rows, the (i, j) entry is
      e i j = | (a i − Σₖ p i k · l j k) − (b i − Σₖ q i k · m j k) |
  (the absolute value of an extended real x is max x (−x)), and the total is Σᵢ Σⱼ e i j.
  An array of 8192 rows is cut into 8 row blocks of 1024 rows; the 8192 × 8192 square of index pairs is thereby cut into
  8 × 8 tiles, tile 8·s + t pairing row block s with row block t. The total over the whole is the sum over the 64 tiles
  of the tile's own total. Only commutativity and associativity of addition on the extended reals are used, so the law
  holds at the infinities too and no finiteness of the entries is needed.
-/
import Idealize.ShloMosaic.Lib.ValueIdx
import Idealize.ShloMosaic.PureOps.Ideal.Laws
import Mathlib.Logic.Equiv.Fin.Basic
import Mathlib.Algebra.BigOperators.Fin

noncomputable section

namespace Cert.PairSum

open Idealize.ShloMosaic Idealize.ShloMosaic.ValueIdx
open scoped BigOperators

/-- The difference whose absolute value is entry (i, j): (a i − Σₖ p i k · l j k) − (b i − Σₖ q i k · m j k). -/
def diff {n : ℕ} (p l q m : (⟨2, ![n, 128]⟩ : Shape).Idx → EReal) (a b : (⟨2, ![n, 1]⟩ : Shape).Idx → EReal)
    (i j : Fin n) : EReal :=
  (a (ix2 i 0) - ∑ k : Fin 128, p (ix2 i k) * l (ix2 j k)) - (b (ix2 i 0) - ∑ k : Fin 128, q (ix2 i k) * m (ix2 j k))

/-- Entry (i, j): the absolute value of that difference. -/
def entry {n : ℕ} (p l q m : (⟨2, ![n, 128]⟩ : Shape).Idx → EReal) (a b : (⟨2, ![n, 1]⟩ : Shape).Idx → EReal)
    (i j : Fin n) : EReal :=
  max (diff p l q m a b i j) (-(diff p l q m a b i j))

/-- The total: every entry summed, rows outermost. -/
def total {n : ℕ} (p l q m : (⟨2, ![n, 128]⟩ : Shape).Idx → EReal) (a b : (⟨2, ![n, 1]⟩ : Shape).Idx → EReal) : EReal :=
  ∑ i : Fin n, ∑ j : Fin n, entry p l q m a b i j

/-- Row r of row block t is row r + 1024·t of the whole. -/
def row (t : Fin 8) (r : Fin 1024) : Fin 8192 := ⟨r.val + 1024 * t.val, by have := r.isLt; have := t.isLt; omega⟩

/-- Row block t of an array of 8192 rows: its 1024 rows from row 1024·t on. -/
def rows {w : ℕ} (x : (⟨2, ![8192, w]⟩ : Shape).Idx → EReal) (t : Fin 8) : (⟨2, ![1024, w]⟩ : Shape).Idx → EReal :=
  fun y => x (ix2 (row t (y 0)) (y 1))

/-- A sum over a product range a·b splits into a sum over a of sums over b, index y + b·x. -/
theorem sum_fin_mul {M : Type*} [AddCommMonoid M] {a b n : ℕ} (h : a * b = n) (f : Fin n → M) :
    ∑ i, f i = ∑ x : Fin a, ∑ y : Fin b,
      f ⟨y.val + b * x.val, by subst h; exact (finProdFinEquiv (x, y)).isLt⟩ := by
  subst h
  exact (Equiv.sum_comp finProdFinEquiv f).symm.trans (Fintype.sum_prod_type _)

/-- A sum over 8192 rows is the sum over the 8 row blocks of the sums over each block's 1024 rows. -/
theorem sum_rows {M : Type*} [AddCommMonoid M] (f : Fin 8192 → M) :
    ∑ i, f i = ∑ t : Fin 8, ∑ r : Fin 1024, f (row t r) :=
  sum_fin_mul (a := 8) (b := 1024) (by norm_num) f

/-- The tile with number n pairs row block n / 8 with row block n % 8. -/
def tileRow (n : Fin 64) : Fin 8 := ⟨n.val / 8, by have := n.isLt; omega⟩
def tileCol (n : Fin 64) : Fin 8 := ⟨n.val % 8, by omega⟩

/-- A sum over the 64 tiles is the double sum over their row blocks and column blocks. -/
theorem sum_tiles_grid {M : Type*} [AddCommMonoid M] (g : Fin 8 → Fin 8 → M) :
    ∑ n : Fin 64, g (tileRow n) (tileCol n) = ∑ s : Fin 8, ∑ t : Fin 8, g s t := by
  rw [sum_fin_mul (a := 8) (b := 8) (by norm_num) (fun n : Fin 64 => g (tileRow n) (tileCol n))]
  refine Finset.sum_congr rfl fun s _ => Finset.sum_congr rfl fun t _ => ?_
  have hs : tileRow ⟨t.val + 8 * s.val, by have := t.isLt; have := s.isLt; omega⟩ = s :=
    Fin.ext (by show (t.val + 8 * s.val) / 8 = s.val; have := t.isLt; omega)
  have ht : tileCol ⟨t.val + 8 * s.val, by have := t.isLt; have := s.isLt; omega⟩ = t :=
    Fin.ext (by show (t.val + 8 * s.val) % 8 = t.val; have := t.isLt; omega)
  rw [hs, ht]

/-- A tile's own total is the sum of the whole's entries over the tile's index pairs. -/
theorem total_rows (p l q m : (⟨2, ![8192, 128]⟩ : Shape).Idx → EReal) (a b : (⟨2, ![8192, 1]⟩ : Shape).Idx → EReal)
    (s t : Fin 8) :
    total (rows p s) (rows l t) (rows q s) (rows m t) (rows a s) (rows b s)
      = ∑ r : Fin 1024, ∑ c : Fin 1024, entry p l q m a b (row s r) (row t c) := rfl

/-- THE TILING LAW: the 64 tiles' totals add up to the whole's total. -/
theorem sum_tiles (p l q m : (⟨2, ![8192, 128]⟩ : Shape).Idx → EReal) (a b : (⟨2, ![8192, 1]⟩ : Shape).Idx → EReal) :
    ∑ n : Fin 64, total (rows p (tileRow n)) (rows l (tileCol n)) (rows q (tileRow n)) (rows m (tileCol n))
        (rows a (tileRow n)) (rows b (tileRow n))
      = total p l q m a b := by
  rw [sum_tiles_grid (fun s t => total (rows p s) (rows l t) (rows q s) (rows m t) (rows a s) (rows b s))]
  simp only [total_rows]
  unfold total
  rw [sum_rows (fun i => ∑ j : Fin 8192, entry p l q m a b i j)]
  refine Finset.sum_congr rfl fun s _ => ?_
  rw [Finset.sum_comm]
  refine Finset.sum_congr rfl fun r _ => ?_
  rw [sum_rows (fun j => entry p l q m a b (row s r) j)]

end Cert.PairSum

end
-- ==== Proof.Blocks.lean ====
/-
  The six input blocks the pipeline hands the body at a grid point, as row blocks of the arrays the region finds.

  The grid is 8 × 8, point t = 8·s + u in row-major order. The four windows over p, q and the two columns follow the
  grid's first coordinate s = t / 8, the two windows over l and m follow its second coordinate u = t % 8; each block is
  the 1024 rows from row 1024·(that coordinate) on, every column.
-/
import proofs.«100721_j53927609369071_1_alg».proof.Proof.Gen.KernelIdeal.Frame
import proofs.«100721_j53927609369071_1_alg».proof.Proof.PairSum
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- A grid point as a number below 64. -/
def pt (t : Fin cfg0.N) : Fin 64 := ⟨t.val, lt_of_lt_of_eq t.isLt (show cfg0.N = 64 from N_0)⟩

/-- The six arrays as the region finds them, at their literal types. -/
abbrev arrP (c : Dev nD) : FVec Ideal S8192x128 .f32 := V m c main_v1
abbrev arrL (c : Dev nD) : FVec Ideal S8192x128 .f32 := V m c main_v0
abbrev arrQ (c : Dev nD) : FVec Ideal S8192x128 .f32 := V m c main_v6
abbrev arrM (c : Dev nD) : FVec Ideal S8192x128 .f32 := V m c main_v7
abbrev colA (c : Dev nD) : FVec Ideal S8192x1 .f32 := V m c main_v10
abbrev colB (c : Dev nD) : FVec Ideal S8192x1 .f32 := V m c main_v13

/-- The block indices of the six windows over the grid, decided once. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = t.val % 8 ∧ win0_3.index t 1 = 0 :=
  (by decide +kernel : ∀ t : Fin grid0.N, win0_3.index t 0 = t.val % 8 ∧ win0_3.index t 1 = 0)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)
theorem idx5 : ∀ t : Fin cfg0.N, win0_5.index t 0 = t.val / 8 ∧ win0_5.index t 1 = 0 :=
  (by decide +kernel : ∀ t : Fin grid0.N, win0_5.index t 0 = t.val / 8 ∧ win0_5.index t 1 = 0)

/-- Window 0's block at point t: row block t / 8 of p. -/
theorem blk0 (c : Dev nD) (t : Fin cfg0.N) :
    (iblk m c 0 t : FVec Ideal S1024x128 .f32) = Cert.PairSum.rows (arrP m c) (Cert.PairSum.tileRow (pt t)) := by
  have hi := idx0 t
  funext j
  unfold iblk Cert.PairSum.rows
  rw [View.read_apply]
  show V m c main_v1 _ = V m c main_v1 _
  congr 1
  funext a
  apply Fin.ext
  match a with
  | ⟨0, _⟩ => show win0_0.index t 0 * 1024 + 1 * (j 0).val = (j 0).val + 1024 * (t.val / 8); rw [hi.1]; omega
  | ⟨1, _⟩ => show win0_0.index t 1 * 128 + 1 * (j 1).val = (j 1).val; rw [hi.2]; omega

/-- Window 1's block at point t: row block t % 8 of l. -/
theorem blk1 (c : Dev nD) (t : Fin cfg0.N) :
    (iblk m c 1 t : FVec Ideal S1024x128 .f32) = Cert.PairSum.rows (arrL m c) (Cert.PairSum.tileCol (pt t)) := by
  have hi := idx1 t
  funext j
  unfold iblk Cert.PairSum.rows
  rw [View.read_apply]
  show V m c main_v0 _ = V m c main_v0 _
  congr 1
  funext a
  apply Fin.ext
  match a with
  | ⟨0, _⟩ => show win0_1.index t 0 * 1024 + 1 * (j 0).val = (j 0).val + 1024 * (t.val % 8); rw [hi.1]; omega
  | ⟨1, _⟩ => show win0_1.index t 1 * 128 + 1 * (j 1).val = (j 1).val; rw [hi.2]; omega

/-- Window 2's block at point t: row block t / 8 of q. -/
theorem blk2 (c : Dev nD) (t : Fin cfg0.N) :
    (iblk m c 2 t : FVec Ideal S1024x128 .f32) = Cert.PairSum.rows (arrQ m c) (Cert.PairSum.tileRow (pt t)) := by
  have hi := idx2 t
  funext j
  unfold iblk Cert.PairSum.rows
  rw [View.read_apply]
  show V m c main_v6 _ = V m c main_v6 _
  congr 1
  funext a
  apply Fin.ext
  match a with
  | ⟨0, _⟩ => show win0_2.index t 0 * 1024 + 1 * (j 0).val = (j 0).val + 1024 * (t.val / 8); rw [hi.1]; omega
  | ⟨1, _⟩ => show win0_2.index t 1 * 128 + 1 * (j 1).val = (j 1).val; rw [hi.2]; omega

/-- Window 3's block at point t: row block t % 8 of m. -/
theorem blk3 (c : Dev nD) (t : Fin cfg0.N) :
    (iblk m c 3 t : FVec Ideal S1024x128 .f32) = Cert.PairSum.rows (arrM m c) (Cert.PairSum.tileCol (pt t)) := by
  have hi := idx3 t
  funext j
  unfold iblk Cert.PairSum.rows
  rw [View.read_apply]
  show V m c main_v7 _ = V m c main_v7 _
  congr 1
  funext a
  apply Fin.ext
  match a with
  | ⟨0, _⟩ => show win0_3.index t 0 * 1024 + 1 * (j 0).val = (j 0).val + 1024 * (t.val % 8); rw [hi.1]; omega
  | ⟨1, _⟩ => show win0_3.index t 1 * 128 + 1 * (j 1).val = (j 1).val; rw [hi.2]; omega

/-- Window 4's block at point t: row block t / 8 of the column a. -/
theorem blk4 (c : Dev nD) (t : Fin cfg0.N) :
    (iblk m c 4 t : FVec Ideal S1024x1 .f32) = Cert.PairSum.rows (colA m c) (Cert.PairSum.tileRow (pt t)) := by
  have hi := idx4 t
  funext j
  unfold iblk Cert.PairSum.rows
  rw [View.read_apply]
  show V m c main_v10 _ = V m c main_v10 _
  congr 1
  funext a
  apply Fin.ext
  match a with
  | ⟨0, _⟩ => show win0_4.index t 0 * 1024 + 1 * (j 0).val = (j 0).val + 1024 * (t.val / 8); rw [hi.1]; omega
  | ⟨1, _⟩ => show win0_4.index t 1 * 1 + 1 * (j 1).val = (j 1).val; rw [hi.2]; omega

/-- Window 5's block at point t: row block t / 8 of the column b. -/
theorem blk5 (c : Dev nD) (t : Fin cfg0.N) :
    (iblk m c 5 t : FVec Ideal S1024x1 .f32) = Cert.PairSum.rows (colB m c) (Cert.PairSum.tileRow (pt t)) := by
  have hi := idx5 t
  funext j
  unfold iblk Cert.PairSum.rows
  rw [View.read_apply]
  show V m c main_v13 _ = V m c main_v13 _
  congr 1
  funext a
  apply Fin.ext
  match a with
  | ⟨0, _⟩ => show win0_5.index t 0 * 1024 + 1 * (j 0).val = (j 0).val + 1024 * (t.val / 8); rw [hi.1]; omega
  | ⟨1, _⟩ => show win0_5.index t 1 * 1 + 1 * (j 1).val = (j 1).val; rw [hi.2]; omega

end Cert.KernelIdeal.Blocks

end
-- ==== Proof.TileSum.lean ====
/-
  What the kernel body adds to its one-word accumulator at a grid point, read at the ideal values.

  The body loads four 1024 × 128 blocks p, l, q, m and two 1024 × 1 columns a, b, forms the two 1024 × 1024 products
  p · lᵀ and q · mᵀ (each entry a sum over the 128 shared columns; the narrowing of the operands to bf16 is the identity on
  extended reals), subtracts each from its column broadcast along the lanes, takes the absolute value of the difference of
  the two, sums it along the lanes, then along the rows, and adds the result to the accumulator's word. So the new word is
  the old word plus the tile's total (PairSum.total of the six blocks): rows outermost, lanes innermost, exactly the
  order the total is written in, so nothing is re-associated here.
-/
import proofs.«100721_j53927609369071_1_alg».proof.Proof.Gen.KernelIdeal.Skeleton
import proofs.«100721_j53927609369071_1_alg».proof.Proof.PairSum
import Idealize.ShloMosaic.Lib.Pipeline.Value
import Idealize.ShloMosaic.Lib.ValueIdx
import Idealize.ShloMosaic.PureOps.Ideal.Laws

noncomputable section

namespace Cert.KernelIdeal.TileSum

open Cert.KernelIdeal Cert.KernelIdeal.Gen Idealize.ShloMosaic Idealize.ShloMosaic.ValueIdx
open scoped BigOperators

/-! ## The product's operand indices: output (r, c), shared column k ↦ left (r, k), right (c, k) -/

theorem lhs_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Entry (r, c) of the product of two blocks into the zero accumulator: Σₖ x r k · y c k. -/
theorem prod_apply (x y : FVec Ideal S1024x128 .bf16) (r c : Fin 1024) :
    matmul dot_S1024x128_S1024x128_S1024x1024_1_1_0_0_n_n none x y (constant (F := Ideal) S1024x1024 .f32 0x00000000#32) (ix2 r c)
      = ∑ k : Fin 128, x (ix2 r k) * y (ix2 c k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r c) ((contrEquiv1 dot_S1024x128_S1024x128_S1024x1024_1_1_0_0_n_n 128 rfl rfl).symm k) = ix2 r k := funext fun ax => Fin.ext (by
    match ax with
    | ⟨0, _⟩ => exact lhs_0 _ _
    | ⟨1, _⟩ => exact (lhs_1 _ _).trans hk)
  have er : dot_S1024x128_S1024x128_S1024x1024_1_1_0_0_n_n.rhsIdx (ix2 r c) ((contrEquiv1 dot_S1024x128_S1024x128_S1024x1024_1_1_0_0_n_n 128 rfl rfl).symm k) = ix2 c k := funext fun ax => Fin.ext (by
    match ax with
    | ⟨0, _⟩ => exact rhs_0 _ _
    | ⟨1, _⟩ => exact (rhs_1 _ _).trans hk)
  rw [el, er]

/-- The same with the operands narrowed to bf16 first: at the ideal values the narrowing changes nothing. -/
theorem prod_trunc_apply (x y : FVec Ideal S1024x128 .f32) (h : FTy.bf16.bits < FTy.f32.bits) (r c : Fin 1024) :
    matmul dot_S1024x128_S1024x128_S1024x1024_1_1_0_0_n_n none (truncf .bf16 x h) (truncf .bf16 y h) (constant (F := Ideal) S1024x1024 .f32 0x00000000#32) (ix2 r c)
      = ∑ k : Fin 128, x (ix2 r k) * y (ix2 c k) :=
  prod_apply (truncf .bf16 x h) (truncf .bf16 y h) r c

/-! ## The layout steps at an index -/

/-- A column broadcast along the lanes reads, at (r, c), the column's row r. -/
theorem bcastCol_apply (v : FVec Ideal S1024x1 .f32) (h : S1024x1.Broadcasts S1024x1024) (r c : Fin 1024) :
    broadcastTo S1024x1024 v h (ix2 r c) = v (ix2 r (0 : Fin 1)) := by
  refine broadcastTo_apply v h (ix2 r c) (ix2 r (0 : Fin 1)) fun ax => ?_
  match ax with
  | ⟨0, _⟩ => show r.val = if (1024 : ℕ) = 1 then 0 else r.val; rw [if_neg (by decide)]
  | ⟨1, _⟩ => show 0 = if (1 : ℕ) = 1 then 0 else c.val; rw [if_pos rfl]

/-- A vector of 1024 entries viewed as a column reads, at (r, 0), its entry r. -/
theorem colCast_apply (v : FVec Ideal S1024 .f32) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A one-entry vector viewed as a 1 × 1 block reads that entry. -/
theorem unitCast_apply (v : FVec Ideal S1 .f32) (h : S1.ShapeCasts S1x1) (y : S1x1.Idx) :
    shapeCast S1x1 v h y = v (ix1 (0 : Fin 1)) :=
  shapeCast_apply v h _ _ (by
    have h0 := idx2_lt0 y
    have h1 := idx2_lt1 y
    rw [Shape.rowMajor_val_two, Shape.rowMajor_val_one]
    show (0 : ℕ) = (y 0).val * 1 + (y 1).val
    omega)

/-- The absolute value of a vector at an index: max x (−x) of its entry. -/
theorem absf_apply {s : Shape} {φ : FTy} (a : FVec Ideal s φ) (i : s.Idx) : absf a i = max (a i) (-(a i)) := rfl

/-- A sum along the lanes of a 1024 × 1024 block, read at row r: the sum of that row's entries. -/
theorem laneSum_apply (v : FVec Ideal S1024x1024 .f32) (hφ : FKind.Formats .f32)
    (hacc : (0x00000000#32 : BitVec 32) = FKind.add.neutral .f32 hφ) (r : Fin 1024) :
    multiReduction .add [1] S1024 v 0x00000000#32 reduces_S1024x1024_S1024 hφ hacc (ix1 r) = ∑ c : Fin 1024, v (ix2 r c) :=
  (Ideal.multiReduction_add_single v _ reduces_S1024x1024_S1024 hφ hacc (ix1 r)).trans
    (Finset.sum_congr rfl fun c _ => congrArg v (funext fun ax => Fin.ext (by
      match ax with
      | ⟨0, _⟩ => rfl
      | ⟨1, _⟩ => rfl)))

/-- A sum down the rows of a 1024 × 1 column, read at its one entry: the sum of the column's entries. -/
theorem rowSum_apply (v : FVec Ideal S1024x1 .f32) (hφ : FKind.Formats .f32)
    (hacc : (0x00000000#32 : BitVec 32) = FKind.add.neutral .f32 hφ) (u : Fin 1) :
    multiReduction .add [0] S1 v 0x00000000#32 reduces_S1024x1_S1 hφ hacc (ix1 u) = ∑ r : Fin 1024, v (ix2 r (0 : Fin 1)) :=
  (Ideal.multiReduction_add_single v _ reduces_S1024x1_S1 hφ hacc (ix1 u)).trans
    (Finset.sum_congr rfl fun r _ => congrArg v (funext fun ax => Fin.ext (by
      match ax with
      | ⟨0, _⟩ => rfl
      | ⟨1, _⟩ => show u.val = 0; omega)))

/-! ## The body's arithmetic -/

/-- Entry (r, c) of the block of absolute differences is the tile's entry. -/
theorem absdiff_apply (x0 x1 x2 x3 : FVec Ideal S1024x128 .f32) (x4 x5 : FVec Ideal S1024x1 .f32)
    (h : FTy.bf16.bits < FTy.f32.bits) (hb : S1024x1.Broadcasts S1024x1024) (r c : Fin 1024) :
    absf (subf (subf (broadcastTo S1024x1024 x4 hb)
        (matmul dot_S1024x128_S1024x128_S1024x1024_1_1_0_0_n_n none (truncf .bf16 x0 h) (truncf .bf16 x1 h) (constant (F := Ideal) S1024x1024 .f32 0x00000000#32)))
      (subf (broadcastTo S1024x1024 x5 hb)
        (matmul dot_S1024x128_S1024x128_S1024x1024_1_1_0_0_n_n none (truncf .bf16 x2 h) (truncf .bf16 x3 h) (constant (F := Ideal) S1024x1024 .f32 0x00000000#32)))) (ix2 r c)
      = Cert.PairSum.entry (n := 1024) x0 x1 x2 x3 x4 x5 r c := by
  rw [absf_apply, subf_apply, subf_apply, subf_apply, bcastCol_apply, bcastCol_apply, prod_trunc_apply, prod_trunc_apply]
  rfl

/-- The word the body stores back: the word it loaded plus the tile's total. -/
theorem pay3_apply (x0 x1 x2 x3 : FVec Ideal S1024x128 .f32) (x4 x5 : FVec Ideal S1024x1 .f32) (xs : FVec Ideal S1x1 .f32)
    (y : S1x1.Idx) :
    k0_pay3 (F := Ideal) x0 x1 x2 x3 x4 x5 xs y = xs y + Cert.PairSum.total (n := 1024) x0 x1 x2 x3 x4 x5 := by
  unfold k0_pay3
  dsimp only
  simp only [shapeCast_self]
  refine (addf_apply _ _ _).trans (congrArg (xs y + ·) ?_)
  refine (unitCast_apply _ _ y).trans ?_
  refine (rowSum_apply _ _ _ (0 : Fin 1)).trans ?_
  unfold Cert.PairSum.total
  refine Finset.sum_congr rfl fun r _ => ?_
  refine (colCast_apply _ _ r 0).trans ?_
  refine (laneSum_apply _ _ _ r).trans ?_
  refine Finset.sum_congr rfl fun c _ => ?_
  exact absdiff_apply x0 x1 x2 x3 x4 x5 _ _ r c

/-- The word the first point stores before it accumulates is zero. -/
theorem pay2_apply (y : S1x1.Idx) : (k0_pay2 (F := Ideal)) y = 0 := by
  unfold k0_pay2
  simp only [shapeCast_self]
  exact Ideal.ofBits_zero_f32

/-- The store's own shape cast is the identity. -/
theorem pay1_eq {F : FTy → Type} [FloatOps F] (v : FVec F S1x1 .f32) : k0_pay1 v = v := by
  unfold k0_pay1
  exact shapeCast_self _ _

end Cert.KernelIdeal.TileSum

end
-- ==== Proof.Accum.lean ====
/-
  The accumulator over the grid: after point n the carried word holds the sum of the totals of tiles 0 … n, and the word
  the last point copies to the output block is the sum of all 64 tiles' totals, which is the total over the whole arrays.

  Each point adds its tile's total to the word the point before left (the first point to a zero it stores itself), so the
  word after point n is the left-to-right sum Σ_{k ≤ n} tile k — by induction on the point, never by listing the 64 points.
  The tiling law of PairSum turns the sum over the 64 tiles into the total over all 8192 × 8192 index pairs.
-/
import proofs.«100721_j53927609369071_1_alg».proof.Proof.Gen.KernelIdeal.Frame
import proofs.«100721_j53927609369071_1_alg».proof.Proof.Pieces
import proofs.«100721_j53927609369071_1_alg».proof.Proof.Blocks
import proofs.«100721_j53927609369071_1_alg».proof.Proof.TileSum
import proofs.«100721_j53927609369071_1_alg».proof.Proof.PairSum
import Idealize.ShloMosaic.Lib.Pipeline.Value

set_option maxRecDepth 16384

noncomputable section

namespace Cert.KernelIdeal.Accum

open Cert.KernelIdeal Cert.KernelIdeal.Gen Cert.KernelIdeal.Blocks Idealize.ShloMosaic Idealize.ShloMosaic.TcCoe
open Idealize.ShloMosaic.ValueIdx Idealize.SL.Sem
open scoped BigOperators

variable (m : (ℓ : Loc nD τ sig) → Buf (Elt Ideal) ℓ)

/-- The total of tile n over the arrays the region finds. -/
def tile (c : Dev nD) (n : Fin 64) : EReal :=
  Cert.PairSum.total (n := 1024) (Cert.PairSum.rows (arrP m c) (Cert.PairSum.tileRow n))
    (Cert.PairSum.rows (arrL m c) (Cert.PairSum.tileCol n)) (Cert.PairSum.rows (arrQ m c) (Cert.PairSum.tileRow n))
    (Cert.PairSum.rows (arrM m c) (Cert.PairSum.tileCol n)) (Cert.PairSum.rows (colA m c) (Cert.PairSum.tileRow n))
    (Cert.PairSum.rows (colB m c) (Cert.PairSum.tileRow n))

/-- The same indexed by a natural number, zero from 64 on. -/
def tileN (c : Dev nD) (k : ℕ) : EReal := if hk : k < 64 then tile m c ⟨k, hk⟩ else 0

theorem tileN_pt (c : Dev nD) (t : Fin cfg0.N) : tile m c (pt t) = tileN m c t.val := by
  unfold tileN
  rw [dif_pos (lt_of_lt_of_eq t.isLt (show cfg0.N = 64 from N_0))]
  rfl

/-- The total of the six blocks at point t is tile t's. -/
theorem tile_eq (c : Dev nD) (t : Fin cfg0.N) :
    Cert.PairSum.total (n := 1024) (iblk m c 0 t) (iblk m c 1 t) (iblk m c 2 t) (iblk m c 3 t) (iblk m c 4 t) (iblk m c 5 t) = tileN m c t.val := by
  rw [← tileN_pt]
  unfold tile
  rw [blk0 m c t, blk1 m c t, blk2 m c t, blk3 m c t, blk4 m c t, blk5 m c t]

/-- The first point leaves its own tile's total. -/
theorem step_A (c : Dev nD) (t : Fin cfg0.N) (h0 : t.val % 64 = 0) (h1 : ¬t.val % 64 = 63) (y : S1x1.Idx) :
    (outsAt0 m c t.val t.isLt).2 y = tileN m c t.val := by
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) y).trans ?_
  refine (congrFun (TileSum.pay1_eq _) y).trans ?_
  refine (TileSum.pay3_apply (iblk m c 0 t) (iblk m c 1 t) (iblk m c 2 t) (iblk m c 3 t) (iblk m c 4 t) (iblk m c 5 t) (k0_pay2 (F := Ideal)) y).trans ?_
  rw [TileSum.pay2_apply, zero_add]
  exact tile_eq m c t

/-- A later point that is not the last adds its tile's total to what the point before left. -/
theorem step_B (c : Dev nD) (t : Fin cfg0.N) (h0 : ¬t.val % 64 = 0) (h1 : ¬t.val % 64 = 63) (y : S1x1.Idx) :
    (outsAt0 m c t.val t.isLt).2 y = (outsAt0 m c (t.val - 1) (Nat.lt_of_le_of_lt (Nat.sub_le _ _) t.isLt)).2 y + tileN m c t.val := by
  rw [outsAt0_B m c t h0 h1]
  dsimp only
  refine (congrFun (Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) y).trans ?_
  refine (congrFun (TileSum.pay1_eq _) y).trans ?_
  refine (TileSum.pay3_apply (iblk m c 0 t) (iblk m c 1 t) (iblk m c 2 t) (iblk m c 3 t) (iblk m c 4 t) (iblk m c 5 t) (outsAt0 m c (t.val - 1) (Nat.lt_of_le_of_lt (Nat.sub_le _ _) t.isLt)).2 y).trans ?_
  exact congrArg (_ + ·) (tile_eq m c t)

/-- So does the last point … -/
theorem step_C (c : Dev nD) (t : Fin cfg0.N) (h0 : ¬t.val % 64 = 0) (h1 : t.val % 64 = 63) (y : S1x1.Idx) :
    (outsAt0 m c t.val t.isLt).2 y = (outsAt0 m c (t.val - 1) (Nat.lt_of_le_of_lt (Nat.sub_le _ _) t.isLt)).2 y + tileN m c t.val := by
  rw [outsAt0_C m c t h0 h1]
  dsimp only
  refine (congrFun (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) y).trans ?_
  refine (congrFun (TileSum.pay1_eq _) y).trans ?_
  refine (TileSum.pay3_apply (iblk m c 0 t) (iblk m c 1 t) (iblk m c 2 t) (iblk m c 3 t) (iblk m c 4 t) (iblk m c 5 t) (outsAt0 m c (t.val - 1) (Nat.lt_of_le_of_lt (Nat.sub_le _ _) t.isLt)).2 y).trans ?_
  exact congrArg (_ + ·) (tile_eq m c t)

/-- … and the word it hands the output block is that same sum. -/
theorem out_C (c : Dev nD) (t : Fin cfg0.N) (h0 : ¬t.val % 64 = 0) (h1 : t.val % 64 = 63) (y : S1x1.Idx) :
    (outsAt0 m c t.val t.isLt).1 y = (outsAt0 m c (t.val - 1) (Nat.lt_of_le_of_lt (Nat.sub_le _ _) t.isLt)).2 y + tileN m c t.val := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) y).trans ?_
  refine (congrFun (TileSum.pay1_eq _) y).trans ?_
  refine (TileSum.pay3_apply (iblk m c 0 t) (iblk m c 1 t) (iblk m c 2 t) (iblk m c 3 t) (iblk m c 4 t) (iblk m c 5 t) (outsAt0 m c (t.val - 1) (Nat.lt_of_le_of_lt (Nat.sub_le _ _) t.isLt)).2 y).trans ?_
  exact congrArg (_ + ·) (tile_eq m c t)

/-- THE RUNNING SUM: after point n the carried word is Σ_{k ≤ n} tile k. -/
theorem acc_eq (c : Dev nD) : ∀ (n : ℕ) (h : n < cfg0.N) (y : S1x1.Idx),
    (outsAt0 m c n h).2 y = ∑ k ∈ Finset.range (n + 1), tileN m c k
  | 0, h, y => by
    rw [Finset.sum_range_one]
    exact step_A m c ⟨0, h⟩ rfl (by show ¬0 % 64 = 63; decide) y
  | n + 1, h, y => by
    have hN : cfg0.N = 64 := N_0
    have h0 : ¬(⟨n + 1, h⟩ : Fin cfg0.N).val % 64 = 0 := by dsimp only; omega
    rw [Finset.sum_range_succ, ← acc_eq c n (Nat.lt_of_succ_lt h) y]
    by_cases h1 : (⟨n + 1, h⟩ : Fin cfg0.N).val % 64 = 63
    · exact step_C m c ⟨n + 1, h⟩ h0 h1 y
    · exact step_B m c ⟨n + 1, h⟩ h0 h1 y

/-- The word a last point of the grid copies to the output block: the running sum through that point. -/
theorem out_succ (c : Dev nD) (n : ℕ) (h : n + 1 < cfg0.N) (h1 : (n + 1) % 64 = 63) (y : S1x1.Idx) :
    (outsAt0 m c (n + 1) h).1 y = ∑ k ∈ Finset.range (n + 1 + 1), tileN m c k := by
  have hN : cfg0.N = 64 := N_0
  have h0 : ¬(⟨n + 1, h⟩ : Fin cfg0.N).val % 64 = 0 := by dsimp only; omega
  rw [Finset.sum_range_succ, ← acc_eq m c n (Nat.lt_of_succ_lt h) y]
  exact out_C m c ⟨n + 1, h⟩ h0 h1 y

/-- The 64 tiles' totals add up to the total over the whole arrays (the tiling law). -/
theorem sum_all (c : Dev nD) :
    ∑ k ∈ Finset.range 64, tileN m c k = Cert.PairSum.total (n := 8192) (arrP m c) (arrL m c) (arrQ m c) (arrM m c) (colA m c) (colB m c) := by
  rw [Finset.sum_range, ← Cert.PairSum.sum_tiles (arrP m c) (arrL m c) (arrQ m c) (arrM m c) (colA m c) (colB m c)]
  refine Finset.sum_congr rfl fun k _ => ?_
  unfold tileN
  rw [dif_pos k.isLt]
  rfl

/-- The last grid point. -/
abbrev tLast : Fin cfg0.N := ⟨62 + 1, by rw [show cfg0.N = 64 from N_0]; decide⟩

/-- What the output block ends holding: the total over the whole arrays. -/
theorem out_last (c : Dev nD) (y : S1x1.Idx) :
    (outsAt0 m c tLast.val tLast.isLt).1 y = Cert.PairSum.total (n := 8192) (arrP m c) (arrL m c) (arrQ m c) (arrM m c) (colA m c) (colB m c) :=
  (out_succ m c 62 tLast.isLt (by decide) y).trans (sum_all m c)

end Cert.KernelIdeal.Accum

end
-- ==== Proof.KernelValue.lean ====
/-
  The kernel program's run read as a value: the 1 × 1 result array of the launch ends holding the total over the whole
  arrays (its one block is written back once, after the last grid point, and that block is the array), and the host
  lines after the launch reshape it to a scalar, add the constant 1e-4 (as its f32 word) and divide by 2^26.
-/
import proofs.«100721_j53927609369071_1_alg».proof.Proof.Gen.KernelIdeal.Frame
import proofs.«100721_j53927609369071_1_alg».proof.Proof.Accum
import Idealize.ShloMosaic.Lib.Pipeline.Value
import Idealize.ShloMosaic.Lib.StableHlo.Run
import Idealize.ShloMosaic.Lib.Tactic

set_option maxRecDepth 16384

noncomputable section

namespace Cert.KernelIdeal.KernelValue

open Cert.KernelIdeal Cert.KernelIdeal.Gen Cert.KernelIdeal.Blocks Cert.KernelIdeal.Accum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The total over the whole arrays, as the contents of the launch's 1 × 1 result array. -/
def total (c : Dev nD) : EReal := Cert.PairSum.total (n := 8192) (arrP m c) (arrL m c) (arrQ m c) (arrM m c) (colA m c) (colB m c)
abbrev result (c : Dev nD) : Buf (Elt Ideal) ((c : Thread nD τ).loc main_v14) := (fun _ => total m c : Vec Ideal S1x1 .f32)

/-- What the last point leaves in the output's staging buffer is that array. -/
theorem out_last_eq (c : Dev nD) : (outsAt0 m c tLast.val tLast.isLt).1 = result m c :=
  funext fun y => out_last m c y

/-- The one write-back, after the last point, writes it: block (0, 0) of the 1 × 1 array read at zero offsets is the array. -/
theorem flushed_eq (c : Dev nD) (t : Fin cfg0.N) (hf : (cfg0.win 6).flush t = true) :
    (dats m 0 c).flushed 6 t = ((cfg0.win 6).blk t).view.read (Elt Ideal) (result m c) := by
  have hN : cfg0.N = 64 := N_0
  have h63 : t.val = 63 := by have := (flush0_6 t).mp hf; have := t.isLt; omega
  obtain rfl : t = tLast := Fin.ext h63
  show (cfg0.win 6).cut (grid0.coords tLast) ((dats m 0 c).after 6 tLast) = _
  rw [after0_6, out_last_eq]
  have hz' : (fun a => win0_6.index tLast a * main_v14.ty.shape.size a) = fun _ => 0 := funext fun a => by fin_cases a <;> decide
  exact (Memref.read_access_unit_zero (Elt Ideal) main_v14 hz' (fun a => by rw [congrFun hz' a]; simp) (result m c)).symm

/-- So the result array ends holding the total: the last point's block covers it. -/
theorem final6 (c : Dev nD) : (dats m 0 c).arrAt 6 cfg0.N = result m c :=
  (dats m 0 c).arrAt_eq_of_cover 6 (result m c) (flushed_eq m c) fun i =>
    ⟨tLast, (flush0_6 tLast).mpr (by show 63 % 64 = 63; decide), by
      show i ∈ ((View.whole main_v14).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- The program's result: (1e-4 + total) / 2^26, the constants as their f32 words, the division the host's. -/
def loss (c : Dev nD) : Buf (Elt Ideal) ((c : Thread nD τ).loc main_v17) :=
  Host.divf (F := Ideal) (addf (constant (F := Ideal) S_ .f32 0x38D1B717#32) (shapeCast S_ (result m c) shapeCasts_S1x1_S_))
    (constant (F := Ideal) S_ .f32 0x4C800000#32)

/-- The host lines after the launch compute it from the result array. -/
theorem tail_v17 (c : Dev nD) :
    Pipeline.afterTail₀ cfgs (dats m) 0 (V0 m) [hostOps1] c main_v17 = loss m c := by
  unfold Pipeline.afterTail₀
  show StableHlo.after hostOps1 _ (Proc.devRef .tc main_v17) = _
  after_results
  rw [(Pipeline.withArrays_arr spec0 launch0.win.arr_inj c _ _ 6).trans (final6 m c)]
  rfl

/-- The run, read: the result at that value, the arguments unchanged. -/
theorem run : θ_run defs (onTc (τ := τ) (main (F := Ideal))) ⟨m, fun _ => 0, ρ⟩ fun r => ∀ c : Dev nD,
      r.2.mem ((c.tc : Thread nD τ).loc main_v17) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans (tail_v17 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefTotal.lean ====
/-
  The reference's sum read as the total of PairSum: with p = exp(log-softmax s), l = log-softmax s, q the clamped and
  weighted one-hot targets, m = log q, and the two columns a = Σ p·l, b = Σ q·m (each as an 8192 × 1 array), the
  reference forms the two 8192 × 8192 products p · lᵀ and q · mᵀ through explicit transposes, subtracts each from its
  column broadcast along the second axis, takes the absolute value of the difference of the two, and sums every entry
  from zero. Entry (i, j) of that matrix is PairSum.entry … i j, and the sum over all index pairs is the double sum.
-/
import proofs.«100721_j53927609369071_1_alg».proof.Proof.RefRead
import proofs.«100721_j53927609369071_1_alg».proof.Proof.PairSum
import Idealize.ShloMosaic.Lib.ValueIdx
import Idealize.ShloMosaic.PureOps.Ideal.Laws

noncomputable section

namespace Cert.ReferenceIdeal.RefTotal

open Cert.ReferenceIdeal Cert.ReferenceIdeal.Gen Cert.ReferenceIdeal.Read Idealize.ShloMosaic Idealize.ShloMosaic.ValueIdx
open scoped BigOperators

variable (x0 : (⟨S8192x128, .f32⟩ : BufTy).Contents (Elt Ideal)) (x1 : (⟨S8192, .i32⟩ : BufTy).Contents (Elt Ideal))
  (x2 : (⟨S128, .f32⟩ : BufTy).Contents (Elt Ideal))

/-- The six arrays the sum is a function of, at their literal types. -/
abbrev arrP : FVec Ideal S8192x128 .f32 := val_main_v6 (F := Ideal) x0
abbrev arrL : FVec Ideal S8192x128 .f32 := val_main_v5 (F := Ideal) x0
abbrev arrQ : FVec Ideal S8192x128 .f32 := val_main_v4 (F := Ideal) x1 x2
abbrev arrM : FVec Ideal S8192x128 .f32 := val_main_v7 (F := Ideal) x1 x2
abbrev colA : FVec Ideal S8192x1 .f32 := val_main_v10 (F := Ideal) x0
abbrev colB : FVec Ideal S8192x1 .f32 := val_main_v17 (F := Ideal) x1 x2

/-- Entry (i, j) of the matrix of absolute differences. -/
theorem absdiff_apply (i j : Fin 8192) :
    val_main_v23 (F := Ideal) x0 x1 x2 (ix2 i j)
      = Cert.PairSum.entry (n := 8192) (arrP x0) (arrL x0) (arrQ x1 x2) (arrM x1 x2) (colA x0) (colB x1 x2) i j := by
  have e13 : idx_main_v13 (ix2 i j) = ix2 i (0 : Fin 1) :=
    funext fun a => Fin.ext (by match a with | ⟨0, _⟩ => rfl | ⟨1, _⟩ => rfl)
  have e20 : idx_main_v20 (ix2 i j) = ix2 i (0 : Fin 1) :=
    funext fun a => Fin.ext (by match a with | ⟨0, _⟩ => rfl | ⟨1, _⟩ => rfl)
  have el12 : ∀ k : Fin 128, lidx_main_v12 (ix2 i j) k = ix2 i k := fun k =>
    funext fun a => Fin.ext (by match a with | ⟨0, _⟩ => rfl | ⟨1, _⟩ => rfl)
  have er12 : ∀ k : Fin 128, idx_main_v11 (ridx_main_v12 (ix2 i j) k) = ix2 j k := fun k =>
    funext fun a => Fin.ext (by match a with | ⟨0, _⟩ => rfl | ⟨1, _⟩ => rfl)
  have el19 : ∀ k : Fin 128, lidx_main_v19 (ix2 i j) k = ix2 i k := fun k =>
    funext fun a => Fin.ext (by match a with | ⟨0, _⟩ => rfl | ⟨1, _⟩ => rfl)
  have er19 : ∀ k : Fin 128, idx_main_v18 (ridx_main_v19 (ix2 i j) k) = ix2 j k := fun k =>
    funext fun a => Fin.ext (by match a with | ⟨0, _⟩ => rfl | ⟨1, _⟩ => rfl)
  rw [val_main_v23_apply, val_main_v22_apply, val_main_v14_apply, val_main_v21_apply, val_main_v13_apply,
    val_main_v12_apply, val_main_v20_apply, val_main_v19_apply]
  simp only [val_main_v11_apply, val_main_v18_apply, e13, e20, el12, er12, el19, er19]
  rfl

/-- The reference's sum of every entry, from zero: the total. -/
theorem sum_apply (i : S_.Idx) :
    val_main_v24 (F := Ideal) x0 x1 x2 i
      = Cert.PairSum.total (n := 8192) (arrP x0) (arrL x0) (arrQ x1 x2) (arrM x1 x2) (colA x0) (colB x1 x2) := by
  rw [val_main_v24_apply, sum_idx2]
  unfold Cert.PairSum.total
  simp only [absdiff_apply]
  rw [val_main_cst_3_apply]
  show Ideal.ofBits .f32 0x00000000#32 + _ = _
  rw [Ideal.ofBits_zero_f32, zero_add]

end Cert.ReferenceIdeal.RefTotal

end
-- ==== Proof.HostArrays.lean ====
/-
  The six arrays the launch reads are the reference's own stages of the same arguments: both programs compute
  log-softmax of s, its exponential, the clamped one-hot targets times the class weights, their logarithm, and the two
  row sums Σ p·l and Σ q·m kept as columns, by the same host operations on the same literals; only the order of the
  lines differs. Stated for any float values (the comparison is of two texts, not of numbers).
-/
import proofs.«100721_j53927609369071_1_alg».proof.Proof.Gen.KernelIdeal.Frame
import proofs.«100721_j53927609369071_1_alg».proof.Proof.RefRead
import Idealize.ShloMosaic.Lib.StableHlo.Run
import Idealize.ShloMosaic.Lib.Tactic

set_option maxRecDepth 16384

noncomputable section

namespace Cert.KernelIdeal.HostArrays

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- l: the log-softmax of s. -/
theorem arrL_eq (c : Dev nD) :
    (V m c main_v0 : FVec F S8192x128 .f32) = Cert.ReferenceIdeal.Read.val_main_v5 (F := F) (m ((c.tc : Thread nD τ).loc main_arg0)) := by
  show StableHlo.after (List.flatten [hostOps0, hostOps0_1, hostOps0_2, hostOps0_3, hostOps0_4, hostOps0_5]) (fun b => m (c, b)) (Proc.devRef .tc main_v0) = _
  simp only [hostOps0, hostOps0_1, hostOps0_2, hostOps0_3, hostOps0_4, hostOps0_5, List.flatten_cons, List.flatten_nil, List.append_nil, List.cons_append, List.nil_append]
  simp only [TRef.nullary, TRef.unary, TRef.binary, TRef.toBuf, TRef.ofBuf, cast_eq]
  after_results_simp
  rfl

set_option maxHeartbeats 2000000 in
/-- p: its exponential. -/
theorem arrP_eq (c : Dev nD) :
    (V m c main_v1 : FVec F S8192x128 .f32) = Cert.ReferenceIdeal.Read.val_main_v6 (F := F) (m ((c.tc : Thread nD τ).loc main_arg0)) := by
  show StableHlo.after (List.flatten [hostOps0, hostOps0_1, hostOps0_2, hostOps0_3, hostOps0_4, hostOps0_5]) (fun b => m (c, b)) (Proc.devRef .tc main_v1) = _
  simp only [hostOps0, hostOps0_1, hostOps0_2, hostOps0_3, hostOps0_4, hostOps0_5, List.flatten_cons, List.flatten_nil, List.append_nil, List.cons_append, List.nil_append]
  simp only [TRef.nullary, TRef.unary, TRef.binary, TRef.toBuf, TRef.ofBuf, cast_eq]
  after_results_simp
  rfl

set_option maxHeartbeats 2000000 in
/-- q: the one-hot targets clamped to [1e-4, 1] times the class weights. -/
theorem arrQ_eq (c : Dev nD) :
    (V m c main_v6 : FVec F S8192x128 .f32) = Cert.ReferenceIdeal.Read.val_main_v4 (F := F) (m ((c.tc : Thread nD τ).loc main_arg1)) (m ((c.tc : Thread nD τ).loc main_arg2)) := by
  show StableHlo.after (List.flatten [hostOps0, hostOps0_1, hostOps0_2, hostOps0_3, hostOps0_4, hostOps0_5]) (fun b => m (c, b)) (Proc.devRef .tc main_v6) = _
  simp only [hostOps0, hostOps0_1, hostOps0_2, hostOps0_3, hostOps0_4, hostOps0_5, List.flatten_cons, List.flatten_nil, List.append_nil, List.cons_append, List.nil_append]
  simp only [TRef.nullary, TRef.unary, TRef.binary, TRef.toBuf, TRef.ofBuf, cast_eq]
  after_results_simp
  rfl

set_option maxHeartbeats 2000000 in
/-- m: the logarithm of q. -/
theorem arrM_eq (c : Dev nD) :
    (V m c main_v7 : FVec F S8192x128 .f32) = Cert.ReferenceIdeal.Read.val_main_v7 (F := F) (m ((c.tc : Thread nD τ).loc main_arg1)) (m ((c.tc : Thread nD τ).loc main_arg2)) := by
  show StableHlo.after (List.flatten [hostOps0, hostOps0_1, hostOps0_2, hostOps0_3, hostOps0_4, hostOps0_5]) (fun b => m (c, b)) (Proc.devRef .tc main_v7) = _
  simp only [hostOps0, hostOps0_1, hostOps0_2, hostOps0_3, hostOps0_4, hostOps0_5, List.flatten_cons, List.flatten_nil, List.append_nil, List.cons_append, List.nil_append]
  simp only [TRef.nullary, TRef.unary, TRef.binary, TRef.toBuf, TRef.ofBuf, cast_eq]
  after_results_simp
  rfl

set_option maxHeartbeats 2000000 in
/-- a: the row sums of p·l, as a column. -/
theorem colA_eq (c : Dev nD) :
    (V m c main_v10 : FVec F S8192x1 .f32) = Cert.ReferenceIdeal.Read.val_main_v10 (F := F) (m ((c.tc : Thread nD τ).loc main_arg0)) := by
  show StableHlo.after (List.flatten [hostOps0, hostOps0_1, hostOps0_2, hostOps0_3, hostOps0_4, hostOps0_5]) (fun b => m (c, b)) (Proc.devRef .tc main_v10) = _
  simp only [hostOps0, hostOps0_1, hostOps0_2, hostOps0_3, hostOps0_4, hostOps0_5, List.flatten_cons, List.flatten_nil, List.append_nil, List.cons_append, List.nil_append]
  simp only [TRef.nullary, TRef.unary, TRef.binary, TRef.toBuf, TRef.ofBuf, cast_eq]
  after_results_simp
  rfl

set_option maxHeartbeats 2000000 in
/-- b: the row sums of q·m, as a column. -/
theorem colB_eq (c : Dev nD) :
    (V m c main_v13 : FVec F S8192x1 .f32) = Cert.ReferenceIdeal.Read.val_main_v17 (F := F) (m ((c.tc : Thread nD τ).loc main_arg1)) (m ((c.tc : Thread nD τ).loc main_arg2)) := by
  show StableHlo.after (List.flatten [hostOps0, hostOps0_1, hostOps0_2, hostOps0_3, hostOps0_4, hostOps0_5]) (fun b => m (c, b)) (Proc.devRef .tc main_v13) = _
  simp only [hostOps0, hostOps0_1, hostOps0_2, hostOps0_3, hostOps0_4, hostOps0_5, List.flatten_cons, List.flatten_nil, List.append_nil, List.cons_append, List.nil_append]
  simp only [TRef.nullary, TRef.unary, TRef.binary, TRef.toBuf, TRef.ofBuf, cast_eq]
  after_results_simp
  rfl

end Cert.KernelIdeal.HostArrays

end
-- ==== Proof.Bridge.lean ====
/-
  The two programs' results are one number. The kernel program ends at (1e-4 + T) / 2^26 with T the total over the six
  arrays its launch reads; the reference ends at (1e-4 + (0 + T′)) / 2^26 with T′ the total over its own six stages. The
  arrays are the stages (the same host operations of the same arguments), so T = T′; the constants are the same f32 words
  and the division the same host division, so nothing about them is evaluated.
-/
import proofs.«100721_j53927609369071_1_alg».proof.Proof.KernelValue
import proofs.«100721_j53927609369071_1_alg».proof.Proof.RefTotal
import proofs.«100721_j53927609369071_1_alg».proof.Proof.HostArrays

set_option maxRecDepth 16384

noncomputable section

namespace Cert.KernelIdeal.Bridge

open Cert.KernelIdeal Cert.KernelIdeal.Gen Cert.KernelIdeal.Blocks Idealize.ShloMosaic Idealize.ShloMosaic.TcCoe Idealize.SL.Sem

variable (m : (ℓ : Loc nD τ sig) → Buf (Elt Ideal) ℓ)

/-- The kernel's total is the reference's: the six arrays are the reference's six stages of the same arguments. -/
theorem total_eq (c : Dev nD) :
    KernelValue.total m c
      = Cert.PairSum.total (n := 8192) (Cert.ReferenceIdeal.RefTotal.arrP (m ((c.tc : Thread nD τ).loc main_arg0))) (Cert.ReferenceIdeal.RefTotal.arrL (m ((c.tc : Thread nD τ).loc main_arg0)))
          (Cert.ReferenceIdeal.RefTotal.arrQ (m ((c.tc : Thread nD τ).loc main_arg1)) (m ((c.tc : Thread nD τ).loc main_arg2))) (Cert.ReferenceIdeal.RefTotal.arrM (m ((c.tc : Thread nD τ).loc main_arg1)) (m ((c.tc : Thread nD τ).loc main_arg2)))
          (Cert.ReferenceIdeal.RefTotal.colA (m ((c.tc : Thread nD τ).loc main_arg0))) (Cert.ReferenceIdeal.RefTotal.colB (m ((c.tc : Thread nD τ).loc main_arg1)) (m ((c.tc : Thread nD τ).loc main_arg2))) := by
  have eP : arrP m c = Cert.ReferenceIdeal.RefTotal.arrP (m ((c.tc : Thread nD τ).loc main_arg0)) := HostArrays.arrP_eq m c
  have eL : arrL m c = Cert.ReferenceIdeal.RefTotal.arrL (m ((c.tc : Thread nD τ).loc main_arg0)) := HostArrays.arrL_eq m c
  have eQ : arrQ m c = Cert.ReferenceIdeal.RefTotal.arrQ (m ((c.tc : Thread nD τ).loc main_arg1)) (m ((c.tc : Thread nD τ).loc main_arg2)) := HostArrays.arrQ_eq m c
  have eM : arrM m c = Cert.ReferenceIdeal.RefTotal.arrM (m ((c.tc : Thread nD τ).loc main_arg1)) (m ((c.tc : Thread nD τ).loc main_arg2)) := HostArrays.arrM_eq m c
  have eA : colA m c = Cert.ReferenceIdeal.RefTotal.colA (m ((c.tc : Thread nD τ).loc main_arg0)) := HostArrays.colA_eq m c
  have eB : colB m c = Cert.ReferenceIdeal.RefTotal.colB (m ((c.tc : Thread nD τ).loc main_arg1)) (m ((c.tc : Thread nD τ).loc main_arg2)) := HostArrays.colB_eq m c
  unfold KernelValue.total
  rw [eP, eL, eQ, eM, eA, eB]

/-- The reference's result stage at the kernel's arguments is the kernel program's result. -/
theorem loss_eq (c : Dev nD) :
    Cert.ReferenceIdeal.Read.val_main_v26 (F := Ideal) (m ((c.tc : Thread nD τ).loc main_arg0)) (m ((c.tc : Thread nD τ).loc main_arg1)) (m ((c.tc : Thread nD τ).loc main_arg2)) = KernelValue.loss m c := by
  funext i
  rw [Cert.ReferenceIdeal.Read.val_main_v26_apply, Cert.ReferenceIdeal.Read.val_main_v25_apply,
    Cert.ReferenceIdeal.RefTotal.sum_apply, ← total_eq m c]
  rfl

end Cert.KernelIdeal.Bridge

end
-- ==== Proof.lean ====
/-
  The certificate of the pairwise-divergence loss kernel against its jnp reference.

  Both programs compute, from logits s, integer targets t and class weights w, the arrays p = exp(log-softmax s),
  l = log-softmax s, q = clip(one-hot t, 1e-4, 1) · w, m = log q and the columns a = Σ p·l, b = Σ q·m, and return
  (1e-4 + Σᵢ Σⱼ |(aᵢ − Σₖ pᵢₖ lⱼₖ) − (bᵢ − Σₖ qᵢₖ mⱼₖ)|) / 2^26. The reference forms the two 8192 × 8192 products whole
  and sums every entry at once; the kernel walks an 8 × 8 grid of 1024 × 1024 tiles, sums each tile (lanes first, then
  rows) and adds the tiles' sums into one carried word, which the last grid point writes out. Over the extended reals
  addition is commutative and associative, so the tiled sum is the whole sum and the two results are equal for every
  input — the finiteness of the inputs is not used.

  The three frames: the kernel program's two (word-level and idealized) are the generated frame certificates; the
  reference's is its run with the result dropped. The ideal pass rewrote nothing, so its ledger is empty.
-/
import proofs.«100721_j53927609369071_1_alg».proof.Defs
import proofs.«100721_j53927609369071_1_alg».proof.Proof.Gen.Kernel
import proofs.«100721_j53927609369071_1_alg».proof.Proof.Gen.Kernel.Skeleton
import proofs.«100721_j53927609369071_1_alg».proof.Proof.Gen.Kernel.Launch
import proofs.«100721_j53927609369071_1_alg».proof.Proof.Gen.Kernel.Points
import proofs.«100721_j53927609369071_1_alg».proof.Proof.Gen.Kernel.Frame
import proofs.«100721_j53927609369071_1_alg».proof.Proof.Gen.KernelIdeal
import proofs.«100721_j53927609369071_1_alg».proof.Proof.Gen.KernelIdeal.Skeleton
import proofs.«100721_j53927609369071_1_alg».proof.Proof.Gen.KernelIdeal.Launch
import proofs.«100721_j53927609369071_1_alg».proof.Proof.Gen.KernelIdeal.Points
import proofs.«100721_j53927609369071_1_alg».proof.Proof.Gen.KernelIdeal.Frame
import proofs.«100721_j53927609369071_1_alg».proof.Proof.Gen.ReferenceIdeal
import proofs.«100721_j53927609369071_1_alg».proof.Proof.Gen.Pre_finite_inputs
import proofs.«100721_j53927609369071_1_alg».proof.Proof.RefRun
import proofs.«100721_j53927609369071_1_alg».proof.Proof.RefRead
import proofs.«100721_j53927609369071_1_alg».proof.Proof.KernelValue
import proofs.«100721_j53927609369071_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end at (1e-4 + total) / 2^26 of arguments that agree. -/
theorem algebraic : Cert.algebraic_KernelIdeal_ReferenceIdeal := by
  intro m ρ m' ρ' _ hagree
  refine ⟨fun c => Cert.KernelIdeal.KernelValue.loss m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2]
  exact Cert.KernelIdeal.Bridge.loss_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
